-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel

variable [Facts]

def fn {F : FTy → Type} [FloatOps F] (main_arg0 : FVec F S262144x256 .f32) (main_arg1 : IVec S262144 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  main_v3
-- ==== Kernel.lean ====
abbrev S262144x256 : Shape := ⟨2, ![262144, 256]⟩
abbrev S262144 : Shape := ⟨1, ![262144]⟩
abbrev S_ : Shape := ⟨0, ![]⟩
abbrev S64 : Shape := ⟨1, ![64]⟩
abbrev S262144x1 : Shape := ⟨2, ![262144, 1]⟩
abbrev S64x1 : Shape := ⟨2, ![64, 1]⟩
abbrev S64x256 : Shape := ⟨2, ![64, 256]⟩
abbrev S2x64x1 : Shape := ⟨3, ![2, 64, 1]⟩
abbrev S4096x256 : Shape := ⟨2, ![4096, 256]⟩
abbrev S4096 : Shape := ⟨1, ![4096]⟩
abbrev S1x64x1 : Shape := ⟨3, ![1, 64, 1]⟩
abbrev S4096x64 : Shape := ⟨2, ![4096, 64]⟩
abbrev S4096x1 : Shape := ⟨2, ![4096, 1]⟩
abbrev S2x64 : Shape := ⟨2, ![2, 64]⟩
abbrev S1 : Shape := ⟨1, ![1]⟩

abbrev nBuf : Space → Nat
  | .hbm => 56
  | .vmem => 9
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S262144, .i32⟩
  | .hbm, ⟨3, _⟩ => ⟨S_, .i32⟩
  | .hbm, ⟨4, _⟩ => ⟨S64, .i32⟩
  | .hbm, ⟨5, _⟩ => ⟨S262144x1, .i32⟩
  | .hbm, ⟨6, _⟩ => ⟨S64, .i32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S64, .f32⟩
  | .hbm, ⟨11, _⟩ => ⟨S262144x1, .i32⟩
  | .hbm, ⟨12, _⟩ => ⟨S64, .f32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S64, .i32⟩
  | .hbm, ⟨23, _⟩ => ⟨S64x1, .i32⟩
  | .hbm, ⟨24, _⟩ => ⟨S64x256, .f32⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144, .i32⟩
  | .hbm, ⟨34, _⟩ => ⟨S262144, .i1⟩
  | .hbm, ⟨35, _⟩ => ⟨S262144, .i32⟩
  | .hbm, ⟨36, _⟩ => ⟨S2x64x1, .f32⟩
  | .hbm, ⟨37, _⟩ => ⟨S2x64, .f32⟩
  | .hbm, ⟨38, _⟩ => ⟨S_, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .i1⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S_, .f32⟩
  | .hbm, ⟨55, _⟩ => ⟨S1, .f32⟩
  | .local _ .vmem, ⟨0, _⟩ => ⟨S4096x256, .f32⟩
  | .local _ .vmem, ⟨1, _⟩ => ⟨S4096x256, .f32⟩
  | .local _ .vmem, ⟨2, _⟩ => ⟨S4096, .i32⟩
  | .local _ .vmem, ⟨3, _⟩ => ⟨S4096, .i32⟩
  | .local _ .vmem, ⟨4, _⟩ => ⟨S4096, .i32⟩
  | .local _ .vmem, ⟨5, _⟩ => ⟨S4096, .i32⟩
  | .local _ .vmem, ⟨6, _⟩ => ⟨S64x256, .f32⟩
  | .local _ .vmem, ⟨7, _⟩ => ⟨S1x64x1, .f32⟩
  | .local _ .vmem, ⟨8, _⟩ => ⟨S1x64x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_10 : Ref sig .tc := ⟨.hbm, 50, rfl⟩
abbrev main_v36 : Ref sig .tc := ⟨.hbm, 51, rfl⟩
abbrev main_v37 : Ref sig .tc := ⟨.hbm, 52, rfl⟩
abbrev main_cst_11 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S64 : S_.BroadcastsInDim S64 (![] : Fin 0 → Fin S64.rank)
  bcast_S262144_S262144x1_0 : S262144.BroadcastsInDim S262144x1 (![0] : Fin 1 → Fin S262144x1.rank)
  bcast_S_S262144 : S_.BroadcastsInDim S262144 (![] : Fin 0 → Fin S262144.rank)
  bcast_S64_S64x1_0 : S64.BroadcastsInDim S64x1 (![0] : Fin 1 → Fin S64x1.rank)
  natLt_1_32 : 1 < 32
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S4096x256_S4096x256_0_0 : ∀ a, (![0, 0] : Fin 2 → Nat) a + S4096x256.size a ≤ S4096x256.size a
  h_S4096x256 : 0 < S4096x256.numel
  inb_S4096_S4096_0 : ∀ a, (![0] : Fin 1 → Nat) a + S4096.size a ≤ S4096.size a
  h_S4096 : 0 < S4096.numel
  shapeCasts_S4096_S4096 : S4096.ShapeCasts S4096
  inb_S64x256_S64x256_0_0 : ∀ a, (![0, 0] : Fin 2 → Nat) a + S64x256.size a ≤ S64x256.size a
  h_S64x256 : 0 < S64x256.numel
  shapeCasts_S64x256_S64x256 : S64x256.ShapeCasts S64x256
  iota_S4096x64_d1_w32 : S4096x64.Iotas .tc 32 [1]
  shapeCasts_S4096_S4096x1 : S4096.ShapeCasts S4096x1
  broadcasts_S4096x1_S4096x64 : S4096x1.Broadcasts S4096x64
  reduces_S4096x256_S4096 : S4096x256.Reduces [1] S4096
  shapeCasts_S2x64x1_S2x64 : S2x64x1.ShapeCasts S2x64
  reducesTo_S2x64_S64_d0 : S2x64.ReducesTo [0] S64
  h_S_ : 0 < S_.numel
  reducesTo_S64_S_d0 : S64.ReducesTo [0] S_
  shapeCasts_S_S1 : S_.ShapeCasts S1
  scatter_S64_S262144x1_S262144_n_0_0_1_wf : ScatterDims.WF S64 S262144x1 S262144 [] [0] [0] 1
  gather_S262144x256_S64x1_S64x256_1_0_n_n_0_1_1256_wf : GatherDims.WF S262144x256 S64x1 S64x256 [1] [0] [] [0] [] 1 ![1, 256]
  gather_S64_S262144x1_S262144_n_0_n_n_0_1_1_wf : GatherDims.WF S64 S262144x1 S262144 [] [0] [] [0] [] 1 ![1]
  dot_S4096x64_S64x256_S4096x256_1_0_0_1_n_n_wf : DotDims.WF S4096x64 S64x256 S4096x256 [1] [0] [0] [1] [] []
  dot_S4096x64_S4096x1_S64x1_0_0_1_1_n_n_wf : DotDims.WF S4096x64 S4096x1 S64x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S262144.size a
  hwx0_1 : ∀ i : grid0.Coords, EltTy.bits .i32 = 32 ∨ (Rect.block (s := S262144) S4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S262144.size a
  hwx0_2 : ∀ i : grid0.Coords, EltTy.bits .i32 = 32 ∨ (Rect.block (s := S262144) S4096.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S2x64x1.size a
  hwx0_4 : ∀ i : grid0.Coords, EltTy.bits .f32 = 32 ∨ (Rect.block (s := S2x64x1) S1x64x1.size (cc0_transform_4 i) (hinb0_4 i)).WholeWords (EltTy.packing .f32)

variable [Facts₀]

def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf
def gather_S262144x256_S64x1_S64x256_1_0_n_n_0_1_1256 : GatherDims S262144x256 S64x1 S64x256 where
  offsetDims := [1]
  collapsedSliceDims := [0]
  operandBatchingDims := []
  startIndicesBatchingDims := []
  startIndexMap := [0]
  indexVectorDim := 1
  sliceSizes := ![1, 256]
  wf := gather_S262144x256_S64x1_S64x256_1_0_n_n_0_1_1256_wf
def gather_S64_S262144x1_S262144_n_0_n_n_0_1_1 : GatherDims S64 S262144x1 S262144 where
  offsetDims := []
  collapsedSliceDims := [0]
  operandBatchingDims := []
  startIndicesBatchingDims := []
  startIndexMap := [0]
  indexVectorDim := 1
  sliceSizes := ![1]
  wf := gather_S64_S262144x1_S262144_n_0_n_n_0_1_1_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x64_S4096x1_S64x1_0_0_1_1_n_n : DotDims S4096x64 S4096x1 S64x1 where
  lhsContracting := [0]
  rhsContracting := [0]
  lhsNonContracting := [1]
  rhsNonContracting := [1]
  lhsBatch := []
  rhsBatch := []
  wf := dot_S4096x64_S4096x1_S64x1_0_0_1_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x64x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x256 : Shape := ⟨2, ![262144, 256]⟩
abbrev S262144 : Shape := ⟨1, ![262144]⟩
abbrev S_ : Shape := ⟨0, ![]⟩
abbrev S64 : Shape := ⟨1, ![64]⟩
abbrev S262144x1 : Shape := ⟨2, ![262144, 1]⟩
abbrev S64x1 : Shape := ⟨2, ![64, 1]⟩
abbrev S64x256 : Shape := ⟨2, ![64, 256]⟩
abbrev S1 : Shape := ⟨1, ![1]⟩

abbrev nBuf : Space → Nat
  | .hbm => 71
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S262144, .i32⟩
  | .hbm, ⟨3, _⟩ => ⟨S_, .i32⟩
  | .hbm, ⟨4, _⟩ => ⟨S64, .i32⟩
  | .hbm, ⟨5, _⟩ => ⟨S262144x1, .i32⟩
  | .hbm, ⟨6, _⟩ => ⟨S64, .i32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S64, .f32⟩
  | .hbm, ⟨11, _⟩ => ⟨S262144x1, .i32⟩
  | .hbm, ⟨12, _⟩ => ⟨S64, .f32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S64, .i32⟩
  | .hbm, ⟨23, _⟩ => ⟨S64x1, .i32⟩
  | .hbm, ⟨24, _⟩ => ⟨S64x256, .f32⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x256, .f32⟩
  | .hbm, ⟨34, _⟩ => ⟨S262144x256, .f32⟩
  | .hbm, ⟨35, _⟩ => ⟨S262144x256, .f32⟩
  | .hbm, ⟨36, _⟩ => ⟨S_, .f32⟩
  | .hbm, ⟨37, _⟩ => ⟨S262144, .f32⟩
  | .hbm, ⟨38, _⟩ => ⟨S_, .i32⟩
  | .hbm, ⟨39, _⟩ => ⟨S262144, .i32⟩
  | .hbm, ⟨40, _⟩ => ⟨S262144, .i1⟩
  | .hbm, ⟨41, _⟩ => ⟨S_, .i32⟩
  | .hbm, ⟨42, _⟩ => ⟨S262144, .i32⟩
  | .hbm, ⟨43, _⟩ => ⟨S262144, .i32⟩
  | .hbm, ⟨44, _⟩ => ⟨S262144, .i32⟩
  | .hbm, ⟨45, _⟩ => ⟨S262144x1, .i32⟩
  | .hbm, ⟨46, _⟩ => ⟨S262144, .i32⟩
  | .hbm, ⟨47, _⟩ => ⟨S262144, .i1⟩
  | .hbm, ⟨48, _⟩ => ⟨S_, .f32⟩
  | .hbm, ⟨49, _⟩ => ⟨S262144, .f32⟩
  | .hbm, ⟨50, _⟩ => ⟨S262144, .f32⟩
  | .hbm, ⟨51, _⟩ => ⟨S_, .f32⟩
  | .hbm, ⟨52, _⟩ => ⟨S64, .f32⟩
  | .hbm, ⟨53, _⟩ => ⟨S262144x1, .i32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .i1⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S_, .f32⟩
  | .hbm, ⟨70, _⟩ => ⟨S1, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_c_7 : Ref sig .tc := ⟨.hbm, 38, rfl⟩
abbrev main_v27 : Ref sig .tc := ⟨.hbm, 39, rfl⟩
abbrev main_v28 : Ref sig .tc := ⟨.hbm, 40, rfl⟩
abbrev main_c_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_cst_10 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_v43 : Ref sig .tc := ⟨.hbm, 60, rfl⟩
abbrev main_cst_13 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_14 : Ref sig .tc := ⟨.hbm, 65, rfl⟩
abbrev main_v47 : Ref sig .tc := ⟨.hbm, 66, rfl⟩
abbrev main_v48 : Ref sig .tc := ⟨.hbm, 67, rfl⟩
abbrev main_cst_15 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S262144_S262144x1_0 : S262144.BroadcastsInDim S262144x1 (![0] : Fin 1 → Fin S262144x1.rank)
  bcast_S_S262144 : S_.BroadcastsInDim S262144 (![] : Fin 0 → Fin S262144.rank)
  bcast_S64_S64x1_0 : S64.BroadcastsInDim S64x1 (![0] : Fin 1 → Fin S64x1.rank)
  reducesTo_S262144x256_S262144_d1 : S262144x256.ReducesTo [1] S262144
  h_S_ : 0 < S_.numel
  reducesTo_S64_S_d0 : S64.ReducesTo [0] S_
  shapeCasts_S_S1 : S_.ShapeCasts S1
  scatter_S64_S262144x1_S262144_n_0_0_1_wf : ScatterDims.WF S64 S262144x1 S262144 [] [0] [0] 1
  gather_S262144x256_S64x1_S64x256_1_0_n_n_0_1_1256_wf : GatherDims.WF S262144x256 S64x1 S64x256 [1] [0] [] [0] [] 1 ![1, 256]
  gather_S64x256_S262144x1_S262144x256_1_0_n_n_0_1_1256_wf : GatherDims.WF S64x256 S262144x1 S262144x256 [1] [0] [] [0] [] 1 ![1, 256]
  gather_S64_S262144x1_S262144_n_0_n_n_0_1_1_wf : GatherDims.WF S64 S262144x1 S262144 [] [0] [] [0] [] 1 ![1]

variable [Facts₀]

def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf
def gather_S262144x256_S64x1_S64x256_1_0_n_n_0_1_1256 : GatherDims S262144x256 S64x1 S64x256 where
  offsetDims := [1]
  collapsedSliceDims := [0]
  operandBatchingDims := []
  startIndicesBatchingDims := []
  startIndexMap := [0]
  indexVectorDim := 1
  sliceSizes := ![1, 256]
  wf := gather_S262144x256_S64x1_S64x256_1_0_n_n_0_1_1256_wf
def gather_S64x256_S262144x1_S262144x256_1_0_n_n_0_1_1256 : GatherDims S64x256 S262144x1 S262144x256 where
  offsetDims := [1]
  collapsedSliceDims := [0]
  operandBatchingDims := []
  startIndicesBatchingDims := []
  startIndexMap := [0]
  indexVectorDim := 1
  sliceSizes := ![1, 256]
  wf := gather_S64x256_S262144x1_S262144x256_1_0_n_n_0_1_1256_wf
def gather_S64_S262144x1_S262144_n_0_n_n_0_1_1 : GatherDims S64 S262144x1 S262144 where
  offsetDims := []
  collapsedSliceDims := [0]
  operandBatchingDims := []
  startIndicesBatchingDims := []
  startIndexMap := [0]
  indexVectorDim := 1
  sliceSizes := ![1]
  wf := gather_S64_S262144x1_S262144_n_0_n_n_0_1_1_wf

class Facts : Prop extends Facts₀ where

variable [Facts]
-- ==== Proof.KTail.lean ====
/-
  The host lines after the region, as one function of the per-class counts and the kernel's [2, 64, 1] result.

  The two cores' rows are added, each class's sum is divided by `max (count − 1) 1`, classes with fewer than two rows are
  zeroed, and the 64 values are added up into the one-entry result.
-/
import proofs.«417819_j19396072308794_2_alg».proof.Proof.Gen.KernelIdeal.Frame
import Idealize.ShloMosaic.Lib.StableHlo.Run
import Idealize.ShloMosaic.Lib.Pipeline.Value

noncomputable section

open Idealize.ShloMosaic Idealize.ShloMosaic.TcCoe Idealize.SL.Sem Idealize.ShloMosaic.StableHlo

namespace Cert.KernelIdeal.KValue

open Cert.KernelIdeal Cert.KernelIdeal.Gen

variable {F : FTy → Type} [FloatOps F]
variable (m : (ℓ : Loc nD τ sig) → Buf (Elt F) ℓ)

/-- The per-class sums the host forms from the kernel's result: the two cores' rows added, from zero. -/
def perClass (o : Vec F S2x64x1 .f32) : Vec F S64 .f32 :=
  Host.reduceAdd (shapeCast S2x64 o shapeCasts_S2x64x1_S2x64) (constant (F := F) S_ .f32 0x00000000#32) reducesTo_S2x64_S64_d0 h_S_

/-- The loss from the per-class counts `cnt` and the per-class sums `pcs`. -/
def lossOf (cnt pcs : Vec F S64 .f32) : Vec F S1 .f32 :=
  shapeCast S1
    (Host.reduceAdd
      (select (cmpf (F := F) .oge cnt (broadcastInDim S64 ![] bcast_S_S64 (constant (F := F) S_ .f32 0x40000000#32)))
        (Host.divf pcs
          (maximumf (subf cnt (broadcastInDim S64 ![] bcast_S_S64 (constant (F := F) S_ .f32 0x3F800000#32)))
            (broadcastInDim S64 ![] bcast_S_S64 (constant (F := F) S_ .f32 0x3F800000#32))))
        (broadcastInDim S64 ![] bcast_S_S64 (constant (F := F) S_ .f32 0x00000000#32)))
      (constant (F := F) S_ .f32 0x00000000#32) reducesTo_S64_S_d0 h_S_)
    shapeCasts_S_S1

set_option maxHeartbeats 1600000 in
/-- What the result buffer holds after the lines that follow the region. -/
theorem tail_eq (c : Dev nD) :
    Pipeline.afterTail₀ cfgs (dats m) 0 (V0 m) [hostOps1, hostOps1_1, hostOps1_2] c main_v39
      = lossOf (V0 m c (Proc.devRef .tc main_v7)) (perClass ((dats m 0 c).arrAt 4 cfg0.N)) := by
  unfold Pipeline.afterTail₀
  generalize hW : Pipeline.withArrays (cfgs 0).spec c (V0 m c) (fun w => (dats m 0 c).arrAt w (cfgs 0).N) = W
  have h26 : W (Proc.devRef .tc main_v26) = (dats m 0 c).arrAt 4 cfg0.N := by
    rw [← hW]; exact Pipeline.withArrays_arr spec0 launch0.win.arr_inj c _ _ 4
  have h7 : W (Proc.devRef .tc main_v7) = V0 m c (Proc.devRef .tc main_v7) := by
    rw [← hW]; exact Pipeline.withArrays_of_ne spec0 c _ _ main_v7 (by decide)
  simp only [hostOps1, hostOps1_1, hostOps1_2, List.flatten_cons, List.flatten_nil, List.append_nil, List.cons_append, List.nil_append]
  after_results_simp
  rw [h26, h7]
  simp only [TRef.ofBuf, TRef.toBuf, cast_eq]
  rfl

end Cert.KernelIdeal.KValue

end
-- ==== Proof.KPieces.lean ====
/-
  What the kernel body leaves in the output's staging buffer, per case of its one conditional.

  At the first block of a core (case A) the body stores the zero block, reads it back, and stores the payload computed
  over that zero block; at every other block (case B) it stores the payload computed over what the block before left.
  Both cases end with one store that covers the whole [1, 64, 1] buffer, so the buffer holds that store's value.
-/
import proofs.«417819_j19396072308794_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KValue

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Every block but a core's first: the accumulator the block before left, plus this block's per-class sums. -/
theorem out_B (c : Dev nD) (i : grid0.Coords) (arg2 : Memref sig .tc .vmem S4096x256 .f32) (harg2 : arg2.IsWhole) (arg3 : Memref sig .tc .vmem S4096 .i32) (harg3 : arg3.IsWhole) (arg4 : Memref sig .tc .vmem S4096 .i32) (harg4 : arg4.IsWhole) (arg5 : Memref sig .tc .vmem S64x256 .f32) (harg5 : arg5.IsWhole) (arg6 : Memref sig .tc .vmem S1x64x1 .f32) (harg6 : arg6.IsWhole) (hc0 : ¬cond0_0 i)
    (x0 : Vec F S4096x256 .f32) (x1 : Vec F S4096 .i32) (x2 : Vec F S4096 .i32) (x3 : Vec F S64x256 .f32) (xo4 : Vec F S1x64x1 .f32) :
    out0_B_4 c i arg2 harg2 arg3 harg3 arg4 harg4 arg5 harg5 arg6 harg6 hc0 x0 x1 x2 x3 xo4 = k0_pay2 x0 x1 x2 x3 xo4 := by
  unfold out0_B_4
  rw [View.read_writes_eq_canon _ _ _ (cover0_B_4 c i arg2 harg2 arg3 harg3 arg4 harg4 arg5 harg5 arg6 harg6 hc0 x0 x1 x2 x3 xo4)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S4096x256) hz2, View.ld_unit_zero (S := S4096) hz1, View.ld_unit_zero (S := S64x256) hz2,
    View.ld_unit_zero (S := S1x64x1) hz3]

/-- A core's first block: the zero block is stored first and read back, so the payload is computed over zeros. -/
theorem out_A (c : Dev nD) (i : grid0.Coords) (arg2 : Memref sig .tc .vmem S4096x256 .f32) (harg2 : arg2.IsWhole) (arg3 : Memref sig .tc .vmem S4096 .i32) (harg3 : arg3.IsWhole) (arg4 : Memref sig .tc .vmem S4096 .i32) (harg4 : arg4.IsWhole) (arg5 : Memref sig .tc .vmem S64x256 .f32) (harg5 : arg5.IsWhole) (arg6 : Memref sig .tc .vmem S1x64x1 .f32) (harg6 : arg6.IsWhole) (hc0 : cond0_0 i)
    (x0 : Vec F S4096x256 .f32) (x1 : Vec F S4096 .i32) (x2 : Vec F S4096 .i32) (x3 : Vec F S64x256 .f32) :
    out0_A_4 c i arg2 harg2 arg3 harg3 arg4 harg4 arg5 harg5 arg6 harg6 hc0 x0 x1 x2 x3 = k0_pay2 x0 x1 x2 x3 (k0_pay1 (F := F)) := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  rw [View.canon_cons_unit_zero (S := S1x64x1) hz3, View.readCov_unit_zero (S := S1x64x1) _ hz3]
  simp only [View.readAt_eq_ld, harg2.read_unread, harg3.read_unread, harg4.read_unread, harg5.read_unread,
    View.ld_unit_zero (S := S4096x256) hz2, View.ld_unit_zero (S := S4096) hz1, View.ld_unit_zero (S := S64x256) hz2,
    View.ld_unit_zero (S := S1x64x1) hz3]

end Cert.KernelIdeal.KValue

end
-- ==== Proof.Spec.lean ====
/-
  The mathematics shared by both programs, over the literal shapes and at the extended reals.

  There are 262144 rows of 256 entries, 64 classes, and a table `w` of one anchor row per class.  A row's label is a
  32-bit word; it names class `c` when it IS the word of `c` (a word that is negative or 64 and above names no class).
  `oh v c` is one when the word `v` names `c` and zero otherwise.  A row's squared distance `dist2` is taken to the
  anchor row its one-hot row selects — the zero row when its label names no class.  `maskedDist` is that distance, or
  zero where the row is flagged as its class's anchor.  The sum over a block of 4096 rows of the one-hot weight times the
  masked distance is `blockSum`; a core's 32 blocks add to `coreSum`; `classSum` is the same weighted sum over all rows
  at once.
-/
import Idealize.ShloMosaic.PureOps.Ideal
import Idealize.ShloMosaic.Lib.ValueIdx

noncomputable section

open scoped BigOperators

namespace Cert.Spec

open Idealize.ShloMosaic Idealize.ShloMosaic.ValueIdx

abbrev SN : Shape := ⟨1, ![262144]⟩
abbrev SNxD : Shape := ⟨2, ![262144, 256]⟩
abbrev SC : Shape := ⟨1, ![64]⟩
abbrev SCxD : Shape := ⟨2, ![64, 256]⟩
abbrev SPxCx1 : Shape := ⟨3, ![2, 64, 1]⟩
abbrev SPxC : Shape := ⟨2, ![2, 64]⟩

/-- One when the label word `v` is the word of class `c`, zero otherwise. -/
def oh (v : BitVec 32) (c : Fin 64) : EReal := if v = BitVec.ofNat 32 c.val then 1 else 0

/-- The anchor entry a label word selects through its one-hot row: `w c d` when the word names class `c`, zero when it names none. -/
def picked (w : SCxD.Idx → EReal) (v : BitVec 32) (d : Fin 256) : EReal := ∑ c : Fin 64, oh v c * w (ix2 c d)

/-- Row `n`'s squared distance to the anchor row its label selects. -/
def dist2 (x : SNxD.Idx → EReal) (w : SCxD.Idx → EReal) (lbl : SN.Idx → BitVec 32) (n : Fin 262144) : EReal :=
  ∑ d : Fin 256, (x (ix2 n d) - picked w (lbl (ix1 n)) d) * (x (ix2 n d) - picked w (lbl (ix1 n)) d)

/-- The distance, or zero where the row's anchor flag (a 32-bit word) is positive. -/
def maskedDist (x : SNxD.Idx → EReal) (w : SCxD.Idx → EReal) (lbl anc : SN.Idx → BitVec 32) (n : Fin 262144) : EReal :=
  Scalar.select (IntOp.cmpi .sgt (anc (ix1 n)) 0#32) (0 : EReal) (dist2 x w lbl n)

/-- Row `r` of block `t`: blocks are 4096 consecutive rows. -/
def rowOf (t : Fin 64) (r : Fin 4096) : Fin 262144 := ⟨4096 * t.val + r.val, by have := t.isLt; have := r.isLt; omega⟩

/-- Block `t`'s contribution to class `c`. -/
def blockSum (x : SNxD.Idx → EReal) (w : SCxD.Idx → EReal) (lbl anc : SN.Idx → BitVec 32) (t : Fin 64) (c : Fin 64) : EReal :=
  ∑ r : Fin 4096, oh (lbl (ix1 (rowOf t r))) c * maskedDist x w lbl anc (rowOf t r)

/-- Block `i` of core `p`: cores take 32 consecutive blocks each. -/
def blockOf (p : Fin 2) (i : Fin 32) : Fin 64 := ⟨32 * p.val + i.val, by have := p.isLt; have := i.isLt; omega⟩

/-- Core `p`'s contribution to class `c`: its 32 blocks. -/
def coreSum (x : SNxD.Idx → EReal) (w : SCxD.Idx → EReal) (lbl anc : SN.Idx → BitVec 32) (p : Fin 2) (c : Fin 64) : EReal :=
  ∑ i : Fin 32, blockSum x w lbl anc (blockOf p i) c

/-- The two cores' partial sums as the [2, 64, 1] array the kernel writes. -/
def coreSums (x : SNxD.Idx → EReal) (w : SCxD.Idx → EReal) (lbl anc : SN.Idx → BitVec 32) : SPxCx1.Idx → EReal :=
  fun j => coreSum x w lbl anc (j 0) (j 1)

/-- The weighted sum of a row function over ALL rows whose label names class `c`. -/
def classSum (lbl : SN.Idx → BitVec 32) (f : Fin 262144 → EReal) (c : Fin 64) : EReal :=
  ∑ n : Fin 262144, oh (lbl (ix1 n)) c * f n

end Cert.Spec

end
-- ==== Proof.KPayload.lean ====
/-
  The kernel body's arithmetic read at one class, at the extended reals.

  Over one block of 4096 rows the body builds the one-hot matrix of the labels against the 64 classes, multiplies it
  with the anchor table (each row's own anchor, or the zero row for a label naming no class), takes each row's squared
  distance to that anchor, zeroes the rows flagged as anchors, and multiplies the transposed one-hot matrix with the
  column of those distances: entry `c` of the result is the sum over the block's rows labelled `c` of their masked
  distances.  That is added to the accumulator.  At the extended reals both matrix products are plain sums.
-/
import proofs.«417819_j19396072308794_2_alg».proof.Proof.Gen.KernelIdeal.Skeleton
import proofs.«417819_j19396072308794_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.KValue

open Cert.KernelIdeal Cert.KernelIdeal.Gen Cert.Spec

/-! ## Column forms of the layout operations, read at an index -/

/-- An `[a]` array cast to the column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot matrix -/

/-- The word `1` or `0` of an equality test, widened and converted, is the one-hot weight. -/
private theorem sitofp_cmpi_eq (v : BitVec 32) (c : Fin 64) :
    (FloatOps.sitofp .f32 ((IntOp.cmpi .eq v (BitVec.ofNat 32 c.val)).setWidth 32) : Ideal .f32) = oh v c := by
  unfold oh
  by_cases h : v = BitVec.ofNat 32 c.val
  · rw [if_pos h, h]
    show ((((BitVec.ofBool (BitVec.ofNat 32 c.val == BitVec.ofNat 32 c.val)).setWidth 32).toInt : ℝ) : EReal) = 1
    rw [beq_self_eq_true]
    have e : ((BitVec.ofBool true).setWidth 32).toInt = 1 := by decide
    rw [e]
    norm_num
  · rw [if_neg h]
    show ((((BitVec.ofBool (v == BitVec.ofNat 32 c.val)).setWidth 32).toInt : ℝ) : EReal) = 0
    rw [beq_eq_false_iff_ne.mpr h]
    have e : ((BitVec.ofBool false).setWidth 32).toInt = 0 := by decide
    rw [e]
    norm_num

/-- The one-hot matrix of the labels against the classes, at `(r, c)`. -/
private theorem onehot_apply (l : Vec Ideal S4096 .i32) (r : Fin 4096) (c : Fin 64) :
    (sitofp .f32 (extui 32 (cmpi .eq (broadcastTo S4096x64 (shapeCast S4096x1 l shapeCasts_S4096_S4096x1) broadcasts_S4096x1_S4096x64)
      (iota .tc S4096x64 32 [1] iota_S4096x64_d1_w32)) natLt_1_32) : FVec Ideal S4096x64 .f32) (ix2 r c) = oh (l (ix1 r)) c := by
  rw [sitofp_apply, extui_apply]
  show FloatOps.sitofp .f32 ((IntOp.cmpi .eq (broadcastTo S4096x64 (shapeCast S4096x1 l shapeCasts_S4096_S4096x1) broadcasts_S4096x1_S4096x64 (ix2 r c))
      (iota .tc S4096x64 32 [1] iota_S4096x64_d1_w32 (ix2 r c))).setWidth 32) = _
  rw [broadcastTo_a1_ab_apply, shapeCast_a_a1_apply, iota_single_apply]
  exact sitofp_cmpi_eq _ c

/-! ## The two matrix products, read at an index -/

private theorem lhs_pick_0 (i : S4096x256.Idx) (q : dot_S4096x64_S64x256_S4096x256_1_0_0_1_n_n.contr.Idx) :
    (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide), dif_pos (show (0 : Fin S4096x64.rank) ∈ dot_S4096x64_S64x256_S4096x256_1_0_0_1_n_n.lhsNonContracting by decide)]
  rfl
private theorem lhs_pick_1 (i : S4096x256.Idx) (q : dot_S4096x64_S64x256_S4096x256_1_0_0_1_n_n.contr.Idx) :
    (dot_S4096x64_S64x256_S4096x256_1_0_0_1_n_n.lhsIdx i q 1).val = (q ⟨0, by decide⟩).val :=
  dot_S4096x64_S64x256_S4096x256_1_0_0_1_n_n.lhsIdx_val_of_single rfl i q
private theorem rhs_pick_0 (i : S4096x256.Idx) (q : dot_S4096x64_S64x256_S4096x256_1_0_0_1_n_n.contr.Idx) :
    (dot_S4096x64_S64x256_S4096x256_1_0_0_1_n_n.rhsIdx i q 0).val = (q ⟨0, by decide⟩).val :=
  dot_S4096x64_S64x256_S4096x256_1_0_0_1_n_n.rhsIdx_val_of_single rfl i q
private theorem rhs_pick_1 (i : S4096x256.Idx) (q : dot_S4096x64_S64x256_S4096x256_1_0_0_1_n_n.contr.Idx) :
    (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide), dif_pos (show (1 : Fin S64x256.rank) ∈ dot_S4096x64_S64x256_S4096x256_1_0_0_1_n_n.rhsNonContracting by decide)]
  rfl

/-- The product of a `[4096, 64]` matrix with a `[64, 256]` one into zero, at `(r, d)`: the sum over the 64 inner positions. -/
private theorem matmul_pick_apply (lhs : FVec Ideal S4096x64 .f32) (rhs : FVec Ideal S64x256 .f32) (r : Fin 4096) (d : Fin 256) :
    matmul dot_S4096x64_S64x256_S4096x256_1_0_0_1_n_n none lhs rhs (constant (F := Ideal) S4096x256 .f32 0x00000000#32) (ix2 r d)
      = ∑ c : Fin 64, lhs (ix2 r c) * rhs (ix2 c d) := by
  simp only [matmul]
  rw [Ideal.matmul_constant_zero_apply, ← Equiv.sum_comp (contrEquiv1 dot_S4096x64_S64x256_S4096x256_1_0_0_1_n_n 64 rfl rfl).symm]
  refine Finset.sum_congr rfl fun k _ => ?_
  have hk := contrEquiv1_symm_val dot_S4096x64_S64x256_S4096x256_1_0_0_1_n_n 64 rfl rfl k
  have el : dot_S4096x64_S64x256_S4096x256_1_0_0_1_n_n.lhsIdx (ix2 r d) ((contrEquiv1 dot_S4096x64_S64x256_S4096x256_1_0_0_1_n_n 64 rfl rfl).symm k) = ix2 r k := funext fun a => Fin.ext (by
    match a with
    | ⟨0, _⟩ => exact lhs_pick_0 _ _
    | ⟨1, _⟩ => exact (lhs_pick_1 _ _).trans hk)
  have er : dot_S4096x64_S64x256_S4096x256_1_0_0_1_n_n.rhsIdx (ix2 r d) ((contrEquiv1 dot_S4096x64_S64x256_S4096x256_1_0_0_1_n_n 64 rfl rfl).symm k) = ix2 k d := funext fun a => Fin.ext (by
    match a with
    | ⟨0, _⟩ => exact (rhs_pick_0 _ _).trans hk
    | ⟨1, _⟩ => exact rhs_pick_1 _ _)
  rw [el, er]

private theorem lhs_gath_0 (i : S64x1.Idx) (q : dot_S4096x64_S4096x1_S64x1_0_0_1_1_n_n.contr.Idx) :
    (dot_S4096x64_S4096x1_S64x1_0_0_1_1_n_n.lhsIdx i q 0).val = (q ⟨0, by decide⟩).val :=
  dot_S4096x64_S4096x1_S64x1_0_0_1_1_n_n.lhsIdx_val_of_single rfl i q
private theorem lhs_gath_1 (i : S64x1.Idx) (q : dot_S4096x64_S4096x1_S64x1_0_0_1_1_n_n.contr.Idx) :
    (dot_S4096x64_S4096x1_S64x1_0_0_1_1_n_n.lhsIdx i q 1).val = (i 0).val := by
  unfold DotDims.lhsIdx
  rw [dif_neg (show ¬(1 : Fin S4096x64.rank) ∈ dot_S4096x64_S4096x1_S64x1_0_0_1_1_n_n.lhsBatch by decide), dif_pos (show (1 : Fin S4096x64.rank) ∈ dot_S4096x64_S4096x1_S64x1_0_0_1_1_n_n.lhsNonContracting by decide)]
  rfl
private theorem rhs_gath_0 (i : S64x1.Idx) (q : dot_S4096x64_S4096x1_S64x1_0_0_1_1_n_n.contr.Idx) :
    (dot_S4096x64_S4096x1_S64x1_0_0_1_1_n_n.rhsIdx i q 0).val = (q ⟨0, by decide⟩).val :=
  dot_S4096x64_S4096x1_S64x1_0_0_1_1_n_n.rhsIdx_val_of_single rfl i q
private theorem rhs_gath_1 (i : S64x1.Idx) (q : dot_S4096x64_S4096x1_S64x1_0_0_1_1_n_n.contr.Idx) :
    (dot_S4096x64_S4096x1_S64x1_0_0_1_1_n_n.rhsIdx i q 1).val = (i 1).val := by
  unfold DotDims.rhsIdx
  rw [dif_neg (show ¬(1 : Fin S4096x1.rank) ∈ dot_S4096x64_S4096x1_S64x1_0_0_1_1_n_n.rhsBatch by decide), dif_pos (show (1 : Fin S4096x1.rank) ∈ dot_S4096x64_S4096x1_S64x1_0_0_1_1_n_n.rhsNonContracting by decide)]
  rfl

/-- The transposed product: a `[4096, 64]` matrix against a `[4096, 1]` column, contracted over the rows, into zero, at `(c, u)`. -/
private theorem matmul_gath_apply (lhs : FVec Ideal S4096x64 .f32) (rhs : FVec Ideal S4096x1 .f32) (c : Fin 64) (u : Fin 1) :
    matmul dot_S4096x64_S4096x1_S64x1_0_0_1_1_n_n none lhs rhs (constant (F := Ideal) S64x1 .f32 0x00000000#32) (ix2 c u)
      = ∑ r : Fin 4096, lhs (ix2 r c) * rhs (ix2 r u) := by
  simp only [matmul]
  rw [Ideal.matmul_constant_zero_apply, ← Equiv.sum_comp (contrEquiv1 dot_S4096x64_S4096x1_S64x1_0_0_1_1_n_n 4096 rfl rfl).symm]
  refine Finset.sum_congr rfl fun k _ => ?_
  have hk := contrEquiv1_symm_val dot_S4096x64_S4096x1_S64x1_0_0_1_1_n_n 4096 rfl rfl k
  have el : dot_S4096x64_S4096x1_S64x1_0_0_1_1_n_n.lhsIdx (ix2 c u) ((contrEquiv1 dot_S4096x64_S4096x1_S64x1_0_0_1_1_n_n 4096 rfl rfl).symm k) = ix2 k c := funext fun a => Fin.ext (by
    match a with
    | ⟨0, _⟩ => exact (lhs_gath_0 _ _).trans hk
    | ⟨1, _⟩ => exact lhs_gath_1 _ _)
  have er : dot_S4096x64_S4096x1_S64x1_0_0_1_1_n_n.rhsIdx (ix2 c u) ((contrEquiv1 dot_S4096x64_S4096x1_S64x1_0_0_1_1_n_n 4096 rfl rfl).symm k) = ix2 k u := funext fun a => Fin.ext (by
    match a with
    | ⟨0, _⟩ => exact (rhs_gath_0 _ _).trans hk
    | ⟨1, _⟩ => exact rhs_gath_1 _ _)
  rw [el, er]

/-! ## The lane sum -/

/-- A row's sum over its 256 entries. -/
private theorem rowsum_apply (src : FVec Ideal S4096x256 .f32) (hφ : FTy.f32 = FTy.f32 ∨ FTy.f32 = FTy.bf16)
    (hacc : (0x00000000#32 : BitVec 32) = 0x00000000#32) (r : Fin 4096) :
    multiReduction (F := Ideal) .add [1] S4096 src 0x00000000#32 reduces_S4096x256_S4096 hφ hacc (ix1 r)
      = ∑ d : Fin 256, src (ix2 r d) := by
  refine (Ideal.multiReduction_add_single src 0x00000000#32 reduces_S4096x256_S4096 hφ hacc (ix1 r)).trans ?_
  refine Finset.sum_congr rfl fun d _ => congrArg src ?_
  funext a
  match a with
  | ⟨0, _⟩ => rfl
  | ⟨1, _⟩ => rfl

/-! ## Each row's own anchor -/

/-- The one-hot matrix times the anchor table, at `(r, d)`: entry `d` of the anchor row that row `r`'s label selects. -/
private theorem picked_apply (l : Vec Ideal S4096 .i32) (w : FVec Ideal S64x256 .f32) (r : Fin 4096) (d : Fin 256) :
    matmul dot_S4096x64_S64x256_S4096x256_1_0_0_1_n_n none (sitofp .f32 (extui 32 (cmpi .eq (broadcastTo S4096x64 (shapeCast S4096x1 l shapeCasts_S4096_S4096x1) broadcasts_S4096x1_S4096x64)
      (iota .tc S4096x64 32 [1] iota_S4096x64_d1_w32)) natLt_1_32) : FVec Ideal S4096x64 .f32)
      (shapeCast S64x256 w shapeCasts_S64x256_S64x256) (constant (F := Ideal) S4096x256 .f32 0x00000000#32) (ix2 r d)
      = picked w (l (ix1 r)) d := by
  rw [matmul_pick_apply, shapeCast_self]
  unfold picked
  exact Finset.sum_congr rfl fun c _ => by rw [onehot_apply]

/-! ## The two payloads -/

/-- The zero block a core's first point stores. -/
theorem pay1_apply (j : S1x64x1.Idx) : k0_pay1 (F := Ideal) j = 0 := by
  obtain ⟨u, c, v, rfl⟩ : ∃ (u : Fin 1) (c : Fin 64) (v : Fin 1), j = ix3 u c v := ⟨j 0, j 1, j 2, eq_ix3 j⟩
  unfold k0_pay1
  refine (shapeCast_ab_1ab_apply _ _ u c v).trans ?_
  exact Ideal.ofBits_zero_f32

/-- Row `r`'s masked squared distance, over the block's own arrays: the rows `x`, the labels `l`, the anchor flags `a`, the anchor table `w`. -/
def blkMasked (x : Vec Ideal S4096x256 .f32) (l a : Vec Ideal S4096 .i32) (w : Vec Ideal S64x256 .f32) (r : Fin 4096) : EReal :=
  Scalar.select (IntOp.cmpi .sgt (a (ix1 r)) 0#32) (0 : EReal)
    (∑ d : Fin 256, (x (ix2 r d) - picked w (l (ix1 r)) d) * (x (ix2 r d) - picked w (l (ix1 r)) d))

/-- The payload at class `c`: the accumulator's entry plus the block's rows labelled `c`, each at its masked distance. -/
theorem pay2_apply (x : Vec Ideal S4096x256 .f32) (l a : Vec Ideal S4096 .i32) (w : Vec Ideal S64x256 .f32) (acc : Vec Ideal S1x64x1 .f32) (c : Fin 64) :
    k0_pay2 (F := Ideal) x l a w acc (ix3 0 c 0) = acc (ix3 0 c 0) + ∑ r : Fin 4096, oh (l (ix1 r)) c * blkMasked x l a w r := by
  unfold k0_pay2
  dsimp only
  rw [shapeCast_ab_1ab_apply, addf_apply, shapeCast_1ab_ab_apply, matmul_gath_apply]
  refine congrArg (acc (ix3 0 c 0) + ·) (Finset.sum_congr rfl fun r _ => ?_)
  rw [onehot_apply, shapeCast_a_a1_apply, select_apply, rowsum_apply, shapeCast_self a]
  unfold blkMasked
  refine congrArg (oh (l (ix1 r)) c * ·) ?_
  refine congrArg₂ (Scalar.select (IntOp.cmpi .sgt (a (ix1 r)) 0#32)) Ideal.ofBits_zero_f32 (Finset.sum_congr rfl fun d _ => ?_)
  rw [mulf_apply, subf_apply, picked_apply]

end Cert.KernelIdeal.KValue

end
-- ==== Proof.KBlocks.lean ====
/-
  The windows' blocks as rows of the arrays the region finds.

  Point `t` of the 2 × 32 grid is core `t / 32`, step `t % 32`; the three streamed windows' index maps send it to block
  `32 · (t / 32) + t % 32 = t`, so the block is rows `4096 · t … 4096 · t + 4095` of its array; the anchor table's window
  is the whole table at every point.
-/
import proofs.«417819_j19396072308794_2_alg».proof.Proof.Gen.KernelIdeal.Frame
import proofs.«417819_j19396072308794_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.KValue

open Cert.KernelIdeal Cert.KernelIdeal.Gen Cert.Spec

variable {F : FTy → Type} [FloatOps F]
variable (m : (ℓ : Loc nD τ sig) → Buf (Elt F) ℓ)

/-- A grid point's number as a block number (the grid has 64 points). -/
abbrev blkNo (t : Fin cfg0.N) : Fin 64 := ⟨t.val, lt_of_lt_of_eq t.isLt N_0⟩

/-- The three streamed windows' index maps send point `t` to block `t` (and column block 0); the table's window to
    block (0, 0): decided once over the 64 points of the grid. -/
private theorem idx_rows : ∀ t : Fin cfg0.N, win0_0.index t (0 : Fin 2) = t.val ∧ win0_0.index t (1 : Fin 2) = 0 :=
  (by decide +kernel : ∀ t : Fin grid0.N, _)
private theorem idx_labels : ∀ t : Fin cfg0.N, win0_1.index t (0 : Fin 1) = t.val :=
  (by decide +kernel : ∀ t : Fin grid0.N, _)
private theorem idx_flags : ∀ t : Fin cfg0.N, win0_2.index t (0 : Fin 1) = t.val :=
  (by decide +kernel : ∀ t : Fin grid0.N, _)
private theorem idx_table : ∀ t : Fin cfg0.N, win0_3.index t (0 : Fin 2) = 0 ∧ win0_3.index t (1 : Fin 2) = 0 :=
  (by decide +kernel : ∀ t : Fin grid0.N, _)

/-- The rows window: entry (r, d) of point `t`'s block is entry (4096 t + r, d) of the array. -/
theorem iblk0_apply (c : Dev nD) (t : Fin cfg0.N) (r : Fin 4096) (d : Fin 256) :
    (iblk m c 0 t : Vec F S4096x256 .f32) (ix2 r d) = (V m c main_arg0 : Vec F S262144x256 .f32) (ix2 (rowOf (blkNo t) r) d) := by
  obtain ⟨e0, e1⟩ := idx_rows t
  unfold iblk
  rw [View.read_apply]
  show V m c main_arg0 _ = V m c main_arg0 _
  congr 1
  funext a
  apply Fin.ext
  match a with
  | ⟨0, _⟩ => show win0_0.index t 0 * 4096 + 1 * r.val = 4096 * t.val + r.val; rw [e0]; omega
  | ⟨1, _⟩ => show win0_0.index t 1 * 256 + 1 * d.val = d.val; rw [e1]; omega

/-- The labels window: entry r of point `t`'s block is entry 4096 t + r of the labels. -/
theorem iblk1_apply (c : Dev nD) (t : Fin cfg0.N) (r : Fin 4096) :
    (iblk m c 1 t : Vec F S4096 .i32) (ix1 r) = (V m c main_arg1 : Vec F S262144 .i32) (ix1 (rowOf (blkNo t) r)) := by
  have e0 := idx_labels t
  unfold iblk
  rw [View.read_apply]
  show V m c main_arg1 _ = V m c main_arg1 _
  congr 1
  funext a
  apply Fin.ext
  match a with
  | ⟨0, _⟩ => show win0_1.index t 0 * 4096 + 1 * r.val = 4096 * t.val + r.val; rw [e0]; omega

/-- The anchor flags' window, likewise. -/
theorem iblk2_apply (c : Dev nD) (t : Fin cfg0.N) (r : Fin 4096) :
    (iblk m c 2 t : Vec F S4096 .i32) (ix1 r) = (V m c main_v25 : Vec F S262144 .i32) (ix1 (rowOf (blkNo t) r)) := by
  have e0 := idx_flags t
  unfold iblk
  rw [View.read_apply]
  show V m c main_v25 _ = V m c main_v25 _
  congr 1
  funext a
  apply Fin.ext
  match a with
  | ⟨0, _⟩ => show win0_2.index t 0 * 4096 + 1 * r.val = 4096 * t.val + r.val; rw [e0]; omega

/-- The anchor table's window is the whole table at every point. -/
theorem iblk3_apply (c : Dev nD) (t : Fin cfg0.N) (k : Fin 64) (d : Fin 256) :
    (iblk m c 3 t : Vec F S64x256 .f32) (ix2 k d) = (V m c main_v16 : Vec F S64x256 .f32) (ix2 k d) := by
  obtain ⟨e0, e1⟩ := idx_table t
  unfold iblk
  rw [View.read_apply]
  show V m c main_v16 _ = V m c main_v16 _
  congr 1
  funext a
  apply Fin.ext
  match a with
  | ⟨0, _⟩ => show win0_3.index t 0 * 64 + 1 * k.val = k.val; rw [e0]; omega
  | ⟨1, _⟩ => show win0_3.index t 1 * 256 + 1 * d.val = d.val; rw [e1]; omega

end Cert.KernelIdeal.KValue

end
-- ==== Proof.KAccum.lean ====
/-
  The accumulation across the grid, and the array the region writes.

  A core's 32 points run in order over ONE output block that is written back only after the core's last point.  After
  point `n` (core `n / 32`, step `n % 32`) the output's staging buffer holds, at class `c`, the sum of the class-`c`
  contributions of the core's blocks up to this one: the first point starts from the zero block, each later point adds
  its block's sum to what the point before left.  After step 31 that is the core's whole partial sum, and the two
  write-backs (points 31 and 63) fill rows 0 and 1 of the [2, 64, 1] result.
-/
import proofs.«417819_j19396072308794_2_alg».proof.Proof.KPieces
import proofs.«417819_j19396072308794_2_alg».proof.Proof.KPayload
import proofs.«417819_j19396072308794_2_alg».proof.Proof.KBlocks
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

variable (m : (ℓ : Loc nD τ sig) → Buf (Elt Ideal) ℓ)

/-- Block number `t`'s contribution to class `c`, zero for a number past the last block. -/
def blockSumN (x : SNxD.Idx → EReal) (w : SCxD.Idx → EReal) (lbl anc : SN.Idx → BitVec 32) (t : ℕ) (c : Fin 64) : EReal :=
  if h : t < 64 then blockSum x w lbl anc ⟨t, h⟩ c else 0

/-- At a grid point's own number the guarded block sum is that point's block sum. -/
private theorem blockSumN_blk (x : SNxD.Idx → EReal) (w : SCxD.Idx → EReal) (lbl anc : SN.Idx → BitVec 32)
    (t : Fin cfg0.N) (cls : Fin 64) (k : ℕ) (hk : k = t.val) :
    blockSumN x w lbl anc k cls = blockSum x w lbl anc (blkNo t) cls := by
  subst hk
  exact dif_pos (lt_of_lt_of_eq t.isLt N_0)

/-- What one point adds: the sum over its block's rows, read through the windows, is the block sum of the arrays. -/
private theorem block_sum (c : Dev nD) (t : Fin cfg0.N) (cls : Fin 64) :
    (∑ r : Fin 4096, oh ((iblk m c 1 t : Vec Ideal S4096 .i32) (ix1 r)) cls
        * blkMasked (iblk m c 0 t : Vec Ideal S4096x256 .f32) (iblk m c 1 t : Vec Ideal S4096 .i32)
            (iblk m c 2 t : Vec Ideal S4096 .i32) (iblk m c 3 t : Vec Ideal S64x256 .f32) r)
      = blockSum (V m c main_arg0) (V m c main_v16) (V m c main_arg1) (V m c main_v25) (blkNo t) cls := by
  unfold blockSum
  refine Finset.sum_congr rfl fun r _ => ?_
  unfold blkMasked maskedDist dist2 picked
  simp only [iblk0_apply, iblk1_apply, iblk2_apply, iblk3_apply]

/-- A core's first point: the accumulator starts from the zero block, so the buffer holds the point's block sum. -/
private theorem step_A (c : Dev nD) (t : Fin cfg0.N) (h0 : t.val % 32 = 0) (cls : Fin 64) :
    outsAt0 m c t.val t.isLt (ix3 0 cls 0)
      = blockSum (V m c main_arg0) (V m c main_v16) (V m c main_arg1) (V m c main_v25) (blkNo t) cls := by
  rw [outsAt0_A m c t h0]
  refine (congrFun (out_A (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (iblk m c 0 t) (iblk m c 1 t) (iblk m c 2 t)
    (iblk m c 3 t)) (ix3 0 cls 0)).trans ?_
  refine (pay2_apply _ _ _ _ _ cls).trans ?_
  rw [pay1_apply, zero_add]
  exact block_sum m c t cls

/-- Every other point: what the point before left, plus the point's block sum. -/
private theorem step_B (c : Dev nD) (t : Fin cfg0.N) (h0 : ¬t.val % 32 = 0) (cls : Fin 64) :
    outsAt0 m c t.val t.isLt (ix3 0 cls 0)
      = outsAt0 m c (t.val - 1) (Nat.lt_of_le_of_lt (Nat.sub_le _ _) t.isLt) (ix3 0 cls 0)
        + blockSum (V m c main_arg0) (V m c main_v16) (V m c main_arg1) (V m c main_v25) (blkNo t) cls := by
  rw [outsAt0_B m c t h0]
  refine (congrFun (out_B (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (iblk m c 0 t) (iblk m c 1 t) (iblk m c 2 t)
    (iblk m c 3 t) (outsAt0 m c (t.val - 1) (Nat.lt_of_le_of_lt (Nat.sub_le _ _) t.isLt))) (ix3 0 cls 0)).trans ?_
  refine (pay2_apply _ _ _ _ _ cls).trans ?_
  exact congrArg _ (block_sum m c t cls)

/-- The running sum: after point `n` the staging buffer holds at class `c` the contributions of the blocks
    `32 (n / 32) … n` of the arrays the region found. -/
theorem outsAt_apply (c : Dev nD) (n : ℕ) (h : n < cfg0.N) (cls : Fin 64) :
    outsAt0 m c n h (ix3 0 cls 0)
      = ∑ i ∈ Finset.range (n % 32 + 1),
          blockSumN (V m c main_arg0) (V m c main_v16) (V m c main_arg1) (V m c main_v25) (32 * (n / 32) + i) cls := by
  have hN : cfg0.N = 64 := N_0
  induction n with
  | zero =>
    refine (step_A m c ⟨0, h⟩ rfl cls).trans ?_
    rw [show 0 % 32 + 1 = 1 from rfl, Finset.sum_range_one]
    exact (blockSumN_blk _ _ _ _ ⟨0, h⟩ cls _ rfl).symm
  | succ n ih =>
    by_cases h0 : (n + 1) % 32 = 0
    · refine (step_A m c ⟨n + 1, h⟩ h0 cls).trans ?_
      rw [show (n + 1) % 32 + 1 = 1 from by omega, Finset.sum_range_one]
      exact (blockSumN_blk _ _ _ _ ⟨n + 1, h⟩ cls _ (by show 32 * ((n + 1) / 32) + 0 = n + 1; omega)).symm
    · refine (step_B m c ⟨n + 1, h⟩ h0 cls).trans ?_
      show outsAt0 m c n _ (ix3 0 cls 0) + _ = _
      rw [show (n + 1) % 32 + 1 = (n % 32 + 1) + 1 from by omega, Finset.sum_range_succ,
        show (n + 1) / 32 = n / 32 from by omega, ih (Nat.lt_of_succ_lt h)]
      exact congrArg _ (blockSumN_blk _ _ _ _ ⟨n + 1, h⟩ cls _ (by show 32 * (n / 32) + (n % 32 + 1) = n + 1; omega)).symm

/-- The output window's index map sends point `t` to block (core, 0, 0), the core being `t / 32`: decided over the
    64 points of the grid. -/
private theorem idx_out : ∀ t : Fin cfg0.N,
    win0_4.index t (0 : Fin 3) = t.val / 32 ∧ win0_4.index t (1 : Fin 3) = 0 ∧ win0_4.index t (2 : Fin 3) = 0 :=
  (by decide +kernel : ∀ t : Fin grid0.N, _)

/-- A core's last point has seen all 32 of its blocks: the running sum there is the core's partial sum. -/
private theorem outsAt_last (c : Dev nD) (t : Fin cfg0.N) (h31 : t.val % 32 = 31) (p : Fin 2) (hp : p.val = t.val / 32)
    (cls : Fin 64) :
    outsAt0 m c t.val t.isLt (ix3 0 cls 0)
      = coreSum (V m c main_arg0) (V m c main_v16) (V m c main_arg1) (V m c main_v25) p cls := by
  have hN : t.val < 64 := lt_of_lt_of_eq t.isLt N_0
  rw [outsAt_apply m c t.val t.isLt cls, h31, Finset.sum_range]
  unfold coreSum
  refine Finset.sum_congr rfl fun i _ => ?_
  have hi : i.val < 32 := i.isLt
  unfold blockSumN
  rw [dif_pos (by omega)]
  exact congrArg (fun b => blockSum (V m c main_arg0) (V m c main_v16) (V m c main_arg1) (V m c main_v25) b cls)
    (Fin.ext (by show 32 * (t.val / 32) + i.val = 32 * p.val + i.val; rw [hp]))

/-- Each write-back writes its core's row of the partial sums: at a core's last point the staging buffer holds the
    core's partial sums, and the block written is row `t / 32` of the [2, 64, 1] array. -/
private theorem flushed_eq (c : Dev nD) (t : Fin cfg0.N) (hf : (cfg0.win 4).flush t = true) :
    (dats m 0 c).flushed 4 t = ((cfg0.win 4).blk t).view.read (Elt Ideal)
      (coreSums (V m c main_arg0) (V m c main_v16) (V m c main_arg1) (V m c main_v25)) := by
  have hN : t.val < 64 := lt_of_lt_of_eq t.isLt N_0
  have h31 : t.val % 32 = 31 := (flush0_4 t).mp hf
  obtain ⟨e0, e1, e2⟩ := idx_out t
  show (cfg0.win 4).cut (grid0.coords t) ((dats m 0 c).after 4 t) = _
  rw [after0_4]
  refine funext fun (y : S1x64x1.Idx) => ?_
  have h0 : (y 0).val < 1 := (y 0).isLt
  have h2 : (y 2).val < 1 := (y 2).isLt
  obtain ⟨cls, rfl⟩ : ∃ cls : Fin 64, y = ix3 0 cls 0 :=
    ⟨y 1, funext fun a => by
      match a with
      | ⟨0, _⟩ => exact Fin.ext (by show (y 0).val = 0; omega)
      | ⟨1, _⟩ => rfl
      | ⟨2, _⟩ => exact Fin.ext (by show (y 2).val = 0; omega)⟩
  rw [View.read_apply]
  show outsAt0 m c t.val t.isLt (ix3 0 cls 0)
    = coreSums (V m c main_arg0) (V m c main_v16) (V m c main_arg1) (V m c main_v25) (((cfg0.win 4).blk t).view.emb (ix3 0 cls 0))
  have hemb : ((cfg0.win 4).blk t).view.emb (ix3 0 cls 0)
      = (ix3 (⟨t.val / 32, by omega⟩ : Fin 2) cls (0 : Fin 1) : S2x64x1.Idx) := by
    funext a
    apply Fin.ext
    match a with
    | ⟨0, _⟩ => show win0_4.index t 0 * 1 + 1 * 0 = t.val / 32; omega
    | ⟨1, _⟩ => show win0_4.index t 1 * 64 + 1 * cls.val = cls.val; rw [e1]; omega
    | ⟨2, _⟩ => show win0_4.index t 2 * 1 + 1 * 0 = 0; omega
  rw [hemb]
  exact outsAt_last m c t h31 ⟨t.val / 32, by omega⟩ rfl cls

/-- The result array after the region: the two cores' partial sums. -/
theorem final_o (c : Dev nD) :
    (dats m 0 c).arrAt 4 cfg0.N = coreSums (V m c main_arg0) (V m c main_v16) (V m c main_arg1) (V m c main_v25) :=
  (dats m 0 c).arrAt_eq_of_cover 4 (coreSums (V m c main_arg0) (V m c main_v16) (V m c main_arg1) (V m c main_v25))
    (flushed_eq m c) fun i => by
      have hi0 : (i 0 : Nat) < 2 := (i 0).isLt
      have hi1 : (i 1 : Nat) < 64 := (i 1).isLt
      have hi2 : (i 2 : Nat) < 1 := (i 2).isLt
      have hlt : 32 * (i 0 : Nat) + 31 < cfg0.N := by rw [show cfg0.N = 64 from N_0]; omega
      obtain ⟨e0, e1, e2⟩ := idx_out ⟨32 * (i 0 : Nat) + 31, hlt⟩
      refine ⟨⟨32 * (i 0 : Nat) + 31, hlt⟩, (flush0_4 _).mpr (by show (32 * (i 0 : Nat) + 31) % 32 = 31; omega), ?_⟩
      show i ∈ ((View.whole main_v26).slice (win0_4.rect ⟨32 * (i 0 : Nat) + 31, hlt⟩)).set
      rw [View.set_slice_whole, Rect.mem_set_unit]
      intro a
      match a with
      | ⟨0, _⟩ =>
        show win0_4.index ⟨32 * (i 0 : Nat) + 31, hlt⟩ 0 * 1 ≤ (i 0 : Nat)
          ∧ (i 0 : Nat) < win0_4.index ⟨32 * (i 0 : Nat) + 31, hlt⟩ 0 * 1 + 1
        rw [e0]; dsimp only; omega
      | ⟨1, _⟩ =>
        show win0_4.index ⟨32 * (i 0 : Nat) + 31, hlt⟩ 1 * 64 ≤ (i 1 : Nat)
          ∧ (i 1 : Nat) < win0_4.index ⟨32 * (i 0 : Nat) + 31, hlt⟩ 1 * 64 + 64
        rw [e1]; omega
      | ⟨2, _⟩ =>
        show win0_4.index ⟨32 * (i 0 : Nat) + 31, hlt⟩ 2 * 1 ≤ (i 2 : Nat)
          ∧ (i 2 : Nat) < win0_4.index ⟨32 * (i 0 : Nat) + 31, hlt⟩ 2 * 1 + 1
        rw [e2]; omega

end Cert.KernelIdeal.KValue

end
-- ==== Proof.KPrefix.lean ====
/-
  What the host lines before the region leave in the buffers the region and the lines after it read.

  The kernel's program computes its anchor table, its anchor flags and its per-class counts with the same host
  operations, on the same two arguments, as the reference does: the first occurrence of each class by a minimum
  scatter of the row numbers, the table by a gather of those rows, a row's flag by comparing its number with its class's
  first occurrence, the counts by a scatter of ones.  So the region finds the table at the reference's stage `val_main_v16`,
  the flags at the 32-bit widening of its stage `val_main_v34`, and the counts at its stage `val_main_v7`.  Stated for
  every float instance.
-/
import proofs.«417819_j19396072308794_2_alg».proof.Proof.Gen.KernelIdeal.Frame
import proofs.«417819_j19396072308794_2_alg».proof.Proof.RefRead
import Idealize.ShloMosaic.Lib.StableHlo.Run

noncomputable section

open Idealize.ShloMosaic Idealize.ShloMosaic.TcCoe Idealize.SL.Sem

namespace Cert.KernelIdeal.KValue

open Cert.KernelIdeal Cert.KernelIdeal.Gen

variable {F : FTy → Type} [FloatOps F]
variable (m : (ℓ : Loc nD τ sig) → Buf (Elt F) ℓ)

/-- The anchor table the region finds is the reference's table of the same arguments. -/
theorem V_v16 (c : Dev nD) :
    V m c main_v16 = Cert.ReferenceIdeal.ReadP.val_main_v16 (F := F) (m ((c : Thread nD τ).loc main_arg0)) (m ((c : Thread nD τ).loc main_arg1)) := by
  show StableHlo.after hostOps0 (fun b => m (c, b)) (Proc.devRef .tc main_v16) = _
  simp only [hostOps0]
  after_results_simp
  simp only [Cert.ReferenceIdeal.ReadP.val_main_v16, Cert.ReferenceIdeal.ReadP.val_main_v15,
    Cert.ReferenceIdeal.ReadP.val_main_v14, Cert.ReferenceIdeal.ReadP.val_main_v13,
    Cert.ReferenceIdeal.ReadP.val_main_v12, Cert.ReferenceIdeal.ReadP.val_main_c_3,
    Cert.ReferenceIdeal.ReadP.val_main_v11, Cert.ReferenceIdeal.ReadP.val_main_v10,
    Cert.ReferenceIdeal.ReadP.val_main_c_2, Cert.ReferenceIdeal.ReadP.val_main_v9,
    Cert.ReferenceIdeal.ReadP.val_main_v8, Cert.ReferenceIdeal.ReadP.val_main_c_1,
    Cert.ReferenceIdeal.ReadP.val_main_v3, Cert.ReferenceIdeal.ReadP.val_main_v2,
    Cert.ReferenceIdeal.ReadP.val_main_v1, Cert.ReferenceIdeal.ReadP.val_main_c,
    Cert.ReferenceIdeal.ReadP.val_main_v0]
  rfl

/-- The anchor flags the region finds are the reference's flags, widened from one bit to 32. -/
theorem V_v25 (c : Dev nD) :
    V m c main_v25 = extui 32 (Cert.ReferenceIdeal.ReadP.val_main_v34 (F := F) (m ((c : Thread nD τ).loc main_arg1))) (by decide) := by
  show StableHlo.after hostOps0 (fun b => m (c, b)) (Proc.devRef .tc main_v25) = _
  simp only [hostOps0]
  after_results_simp
  simp only [Cert.ReferenceIdeal.ReadP.val_main_v34, Cert.ReferenceIdeal.ReadP.val_main_v33,
    Cert.ReferenceIdeal.ReadP.val_main_v32, Cert.ReferenceIdeal.ReadP.val_main_v31,
    Cert.ReferenceIdeal.ReadP.val_main_v30, Cert.ReferenceIdeal.ReadP.val_main_v29,
    Cert.ReferenceIdeal.ReadP.val_main_c_8, Cert.ReferenceIdeal.ReadP.val_main_v28,
    Cert.ReferenceIdeal.ReadP.val_main_v27, Cert.ReferenceIdeal.ReadP.val_main_c_7,
    Cert.ReferenceIdeal.ReadP.val_main_v3, Cert.ReferenceIdeal.ReadP.val_main_v2,
    Cert.ReferenceIdeal.ReadP.val_main_v1, Cert.ReferenceIdeal.ReadP.val_main_c,
    Cert.ReferenceIdeal.ReadP.val_main_v0]
  rfl

/-- The per-class counts the lines after the region read are the reference's counts. -/
theorem V0_v7 (c : Dev nD) :
    V0 m c (Proc.devRef .tc main_v7) = Cert.ReferenceIdeal.ReadP.val_main_v7 (F := F) (m ((c : Thread nD τ).loc main_arg1)) := by
  show StableHlo.after hostOps0 (fun b => m (c, b)) (Proc.devRef .tc main_v7) = _
  simp only [hostOps0]
  after_results_simp
  simp only [Cert.ReferenceIdeal.ReadP.val_main_v7, Cert.ReferenceIdeal.ReadP.val_main_v6,
    Cert.ReferenceIdeal.ReadP.val_main_v5, Cert.ReferenceIdeal.ReadP.val_main_cst_0,
    Cert.ReferenceIdeal.ReadP.val_main_v4, Cert.ReferenceIdeal.ReadP.val_main_cst]
  rfl

end Cert.KernelIdeal.KValue

end
-- ==== Proof.ClassSumAlg.lean ====
/-
  The algebra of class sums over the extended reals: a sum over all 262144 rows is the sum over the two cores of the
  sum over a core's 32 blocks of the sum over a block's 4096 rows (row 4096·(32·p + i) + r); a class sum only reads its
  row function on the rows whose label names the class; and the one-hot row of a label that names class `c` picks row
  `c` of the anchor table.  Only commutativity and associativity of the sum, `0 · a = 0` and `1 · a = a` are used, so
  nothing here needs the entries to be finite.
-/
import Idealize.ShloMosaic.PureOps.Ideal
import Idealize.ShloMosaic.Lib.ValueIdx
import proofs.«417819_j19396072308794_2_alg».proof.Proof.Spec

noncomputable section

open scoped BigOperators

namespace Cert.Spec

open Idealize.ShloMosaic Idealize.ShloMosaic.ValueIdx

/-- The words of two classes are equal only for one class. -/
theorem ofNat_cls_inj (c c' : Fin 64) (h : BitVec.ofNat 32 c.val = BitVec.ofNat 32 c'.val) : c = c' := by
  have h1 := congrArg BitVec.toNat h
  simp only [BitVec.toNat_ofNat] at h1
  have hc := c.isLt
  have hc' := c'.isLt
  apply Fin.ext
  omega

/-- The one-hot weight of a word for a class other than the one it names is zero. -/
private theorem oh_of_ne (v : BitVec 32) (c : Fin 64) (h : v ≠ BitVec.ofNat 32 c.val) : oh v c = 0 := by
  unfold oh
  rw [if_neg h]

/-- The one-hot weight of a class's own word is one. -/
private theorem oh_self (c : Fin 64) : oh (BitVec.ofNat 32 c.val) c = 1 := by
  unfold oh
  rw [if_pos rfl]

/-- The one-hot row of a word that names class `c` picks row `c` of the table. -/
theorem picked_of_eq (w : SCxD.Idx → EReal) (v : BitVec 32) (c : Fin 64) (h : v = BitVec.ofNat 32 c.val) (d : Fin 256) :
    picked w v d = w (ix2 c d) := by
  subst h
  unfold picked
  rw [Finset.sum_eq_single c]
  · rw [oh_self, one_mul]
  · intro b _ hb
    have hne : BitVec.ofNat 32 c.val ≠ BitVec.ofNat 32 b.val := fun h' => hb (ofNat_cls_inj _ _ h').symm
    rw [oh_of_ne _ _ hne, zero_mul]
  · intro hc
    exact absurd (Finset.mem_univ c) hc

/-- A class sum reads its row function only on the rows whose label names the class. -/
theorem classSum_congr (lbl : SN.Idx → BitVec 32) (f g : Fin 262144 → EReal) (c : Fin 64)
    (h : ∀ n, lbl (ix1 n) = BitVec.ofNat 32 c.val → f n = g n) : classSum lbl f c = classSum lbl g c := by
  unfold classSum
  apply Finset.sum_congr rfl
  intro n _
  by_cases hn : lbl (ix1 n) = BitVec.ofNat 32 c.val
  · rw [h n hn]
  · rw [oh_of_ne _ _ hn, zero_mul, zero_mul]

/-- Rows are numbered core by core, block by block: (p, i, r) ↦ 4096·(32·p + i) + r is a bijection onto all rows,
with inverse n ↦ (n / 131072, (n / 4096) mod 32, n mod 4096). -/
private def rowEquiv : Fin 2 × Fin 32 × Fin 4096 ≃ Fin 262144 where
  toFun q := rowOf (blockOf q.1 q.2.1) q.2.2
  invFun n :=
    (⟨n.val / 131072, by have := n.isLt; omega⟩, ⟨(n.val / 4096) % 32, by omega⟩, ⟨n.val % 4096, by omega⟩)
  left_inv q := by
    obtain ⟨p, i, r⟩ := q
    have hp := p.isLt
    have hi := i.isLt
    have hr := r.isLt
    simp only [rowOf, blockOf]
    refine Prod.ext (Fin.ext ?_) (Prod.ext (Fin.ext ?_) (Fin.ext ?_)) <;> simp only <;> omega
  right_inv n := by
    have hn := n.isLt
    simp only [rowOf, blockOf]
    apply Fin.ext
    simp only
    omega

/-- A sum over all rows, regrouped as cores of blocks of rows. -/
private theorem sum_rows (F : Fin 262144 → EReal) :
    ∑ n : Fin 262144, F n = ∑ p : Fin 2, ∑ i : Fin 32, ∑ r : Fin 4096, F (rowOf (blockOf p i) r) := by
  rw [← Equiv.sum_comp rowEquiv F, Fintype.sum_prod_type]
  apply Finset.sum_congr rfl
  intro p _
  rw [Fintype.sum_prod_type]
  apply Finset.sum_congr rfl
  intro i _
  apply Finset.sum_congr rfl
  intro r _
  rfl

/-- The class sum of the masked distances is the two cores' partial sums added. -/
theorem classSum_eq_sum_coreSum (x : SNxD.Idx → EReal) (w : SCxD.Idx → EReal) (lbl anc : SN.Idx → BitVec 32) (c : Fin 64) :
    classSum lbl (maskedDist x w lbl anc) c = ∑ p : Fin 2, coreSum x w lbl anc p c := by
  unfold classSum coreSum blockSum
  exact sum_rows (fun n => oh (lbl (ix1 n)) c * maskedDist x w lbl anc n)

end Cert.Spec

end
-- ==== Proof.RefRow.lean ====
/-
  The reference's masked squared distance of one row, on the rows whose label names a class.

  The reference normalises a label (adds 64 to a negative one), gathers that row of the anchor table (a gather clamps
  its start index into the table), subtracts, squares, sums the 256 entries from zero, and selects zero where the row is
  its class's anchor.  For a row whose label is the word of a class `c` the normalisation and the clamp do nothing, so the
  gathered row is row `c` of the table — the row the kernel's one-hot product picks — and the reference's value is the
  kernel's masked distance over the same table and the same flags.  (On rows whose label names no class the two differ,
  and neither program ever adds such a row to a class.)
-/
import proofs.«417819_j19396072308794_2_alg».proof.Proof.RefRead
import proofs.«417819_j19396072308794_2_alg».proof.Proof.Spec
import proofs.«417819_j19396072308794_2_alg».proof.Proof.ClassSumAlg
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.ReferenceIdeal.RefValue

open Cert.ReferenceIdeal Cert.ReferenceIdeal.ReadP Cert.Spec

/-- A one-bit flag widened to 32 bits is positive exactly when it is set. -/
theorem sgt_extui (b : BitVec 1) : IntOp.cmpi .sgt (b.setWidth 32) 0#32 = b := by
  rcases BitVec.eq_zero_or_eq_one b with h | h <;> subst h <;> decide

/-- The word of a class is not negative. -/
private theorem slt_cls (c : Fin 64) : IntOp.cmpi .slt (BitVec.ofNat 32 c.val) 0#32 = 0#1 := by
  revert c; decide

/-- Read signed and clamped into the table's 64 rows, the word of a class is the class. -/
private theorem clamp_cls (c : Fin 64) : min (BitVec.ofNat 32 c.val).toInt.toNat (64 - 1) = c.val := by
  revert c; decide

/-- The normalised label of a row whose label is class `c`'s word is that word: nothing is added to it. -/
private theorem v22_of_label (x1 : (⟨S262144, .i32⟩ : BufTy).Contents (Elt Ideal))
    (n : Fin 262144) (c : Fin 64) (h : x1 (ix1 n) = BitVec.ofNat 32 c.val) :
    val_main_v22 (F := Ideal) x1 (ix2 n (0 : Fin 1)) = BitVec.ofNat 32 c.val := by
  have e : idx_main_v22 (ix2 n (0 : Fin 1)) = ix1 n := by
    funext a; match a with | ⟨0, _⟩ => rfl
  rw [val_main_v22_apply, e, val_main_v21_apply, val_main_v18_apply, val_main_v17_apply, val_main_c_4_apply, h, slt_cls]
  show (if (0#1 : BitVec 1) = 1 then _ else _) = _
  rw [if_neg (by decide)]

/-- The gathered anchor row of a row whose label is class `c`'s word: row `c` of the table. -/
theorem v23_apply_of_label (x0 : (⟨S262144x256, .f32⟩ : BufTy).Contents (Elt Ideal)) (x1 : (⟨S262144, .i32⟩ : BufTy).Contents (Elt Ideal))
    (n : Fin 262144) (c : Fin 64) (h : x1 (ix1 n) = BitVec.ofNat 32 c.val) (k : Fin 256) :
    val_main_v23 (F := Ideal) x0 x1 (ix2 n k) = val_main_v16 (F := Ideal) x0 x1 (ix2 c k) := by
  have hw := v22_of_label x1 n c h
  unfold val_main_v23
  generalize val_main_v16 (F := Ideal) x0 x1 = T
  generalize val_main_v22 (F := Ideal) x1 = idx at hw
  unfold Host.gather
  congr 1
  funext a
  refine Fin.ext ?_
  show gather_S64x256_S262144x1_S262144x256_1_0_n_n_0_1_1256.start (ix2 n k) idx a + gather_S64x256_S262144x1_S262144x256_1_0_n_n_0_1_1256.batchCoord (ix2 n k) a + gather_S64x256_S262144x1_S262144x256_1_0_n_n_0_1_1256.offCoord (ix2 n k) a = (ix2 c k a).val
  rw [GatherDims.batchCoord_eq_zero _ _ _ List.not_mem_nil, Nat.add_zero]
  have ha : a = (0 : Fin 2) ∨ a = (1 : Fin 2) := by
    match a with
    | ⟨0, _⟩ => exact Or.inl rfl
    | ⟨1, _⟩ => exact Or.inr rfl
  rcases ha with rfl | rfl
  · -- the collapsed axis: the clamped start index, no offset
    rw [GatherDims.offCoord_eq_zero _ _ _ (fun h' => ((GatherDims.mem_sKept _ _).mp h').1 (List.mem_singleton.mpr rfl)),
      Nat.add_zero]
    unfold GatherDims.start
    rw [dif_pos (show (0 : Fin 2) ∈ gather_S64x256_S262144x1_S262144x256_1_0_n_n_0_1_1256.startIndexMap from List.mem_singleton.mpr rfl)]
    have hsi : gather_S64x256_S262144x1_S262144x256_1_0_n_n_0_1_1256.siIdx (ix2 n k) ⟨List.idxOf (0 : Fin 2) gather_S64x256_S262144x1_S262144x256_1_0_n_n_0_1_1256.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi, hw]
    exact clamp_cls c
  · -- the offset axis: no start index, the result's own column
    unfold GatherDims.start
    rw [dif_neg (show (1 : Fin 2) ∉ gather_S64x256_S262144x1_S262144x256_1_0_n_n_0_1_1256.startIndexMap by decide), Nat.zero_add]
    unfold GatherDims.offCoord
    rw [dif_pos (show (1 : Fin 2) ∈ gather_S64x256_S262144x1_S262144x256_1_0_n_n_0_1_1256.sKept by decide)]
    rfl

/-- On a row whose label names a class the reference's masked distance is the kernel's, over the reference's own
    table `val_main_v16` and flags `val_main_v34` (widened to 32 bits, as the kernel's program passes them). -/
theorem v36_apply_of_label (x0 : (⟨S262144x256, .f32⟩ : BufTy).Contents (Elt Ideal)) (x1 : (⟨S262144, .i32⟩ : BufTy).Contents (Elt Ideal))
    (n : Fin 262144) (c : Fin 64) (h : x1 (ix1 n) = BitVec.ofNat 32 c.val) :
    val_main_v36 (F := Ideal) x0 x1 (ix1 n)
      = maskedDist x0 (val_main_v16 (F := Ideal) x0 x1) x1 (extui 32 (val_main_v34 (F := Ideal) x1) (by decide)) n := by
  have hz : (FloatOps.ofBits (F := Ideal) .f32 0x00000000#32) = (0 : EReal) := Ideal.ofBits_zero_f32
  -- each squared difference, read at column `k`: the gathered anchor entry is the one the label's one-hot row picks
  have hterm : ∀ k : Fin 256, val_main_v25 (F := Ideal) x0 x1 (idx_main_v26 (ix1 n) k)
      = (x0 (ix2 n k) - picked (val_main_v16 (F := Ideal) x0 x1) (x1 (ix1 n)) k)
        * (x0 (ix2 n k) - picked (val_main_v16 (F := Ideal) x0 x1) (x1 (ix1 n)) k) := by
    intro k
    have e : idx_main_v26 (ix1 n) k = ix2 n k := by
      funext a
      match a with
      | ⟨0, _⟩ => rfl
      | ⟨1, _⟩ => rfl
    rw [e, val_main_v25_apply, val_main_v24_apply, v23_apply_of_label x0 x1 n c h k,
      picked_of_eq (val_main_v16 (F := Ideal) x0 x1) (x1 (ix1 n)) c h k]
    rfl
  rw [val_main_v36_apply, val_main_v35_apply, val_main_cst_9_apply, val_main_v26_apply, val_main_cst_6_apply, hz, zero_add,
    Finset.sum_congr rfl (fun k _ => hterm k)]
  unfold maskedDist dist2
  rw [extui_apply, sgt_extui]

end Cert.ReferenceIdeal.RefValue

end
-- ==== Proof.ScatterRead.lean ====
/-
  The host's accumulating scatter over one index per row (a segment sum), read at a class.

  The scatter's operand has one entry per class, its index array one 32-bit word per row (as a [rows, 1] array), its
  updates one value per row.  Row `n`'s update lands on class `c` exactly when its index word, read as a signed
  integer and NOT clamped, is `c`; a word outside [0, 64) lands nowhere and is dropped.  At the extended reals the
  scatter's entry at `c` is therefore the operand's entry plus the sum of the updates of the rows whose word is `c`'s.
-/
import Idealize.ShloMosaic.PureOps.Ideal
import Idealize.ShloMosaic.Lib.ValueIdx
import proofs.«417819_j19396072308794_2_alg».proof.Proof.Spec

noncomputable section

open scoped BigOperators

namespace Cert.ScatterRead

open Idealize.ShloMosaic Idealize.ShloMosaic.ValueIdx Cert.Spec

abbrev SNx1 : Shape := ⟨2, ![262144, 1]⟩

/-- The dimension numbers of a segment scatter: no window axes, the operand's one axis inserted and named by the index vector's one component. -/
abbrev segDims (wf : ScatterDims.WF SC SNx1 SN [] [0] [0] 1) : ScatterDims SC SNx1 SN where
  updateWindowDims := []
  insertedWindowDims := [0]
  scatterDimsToOperandDims := [0]
  indexVectorDim := 1
  wf := wf

/-- A 32-bit word read signed is the class number `c` (below 64) exactly when it is the word of `c`. -/
theorem toInt_eq_iff (v : BitVec 32) (c : Fin 64) : v.toInt = (c.val : Int) ↔ v = BitVec.ofNat 32 c.val := by
  have hc := c.isLt
  have hv := v.isLt
  have hmod : c.val % 2 ^ 32 = c.val := Nat.mod_eq_of_lt (by omega)
  constructor
  · intro h
    apply BitVec.eq_of_toNat_eq
    rw [BitVec.toNat_ofNat, hmod]
    rw [BitVec.toInt_eq_toNat_cond] at h
    split at h <;> omega
  · intro h
    subst h
    rw [BitVec.toInt_eq_toNat_cond, BitVec.toNat_ofNat, hmod]
    split <;> omega

/-- The window start on the operand's one axis is row `n`'s index word, read signed. -/
private theorem start_eq (wf : ScatterDims.WF SC SNx1 SN [] [0] [0] 1) (idx : IVec SNx1 32) (n : Fin 262144) (a : Fin 1) :
    (segDims wf).start (ix1 n) idx a = (idx (ix2 n 0)).toInt := by
  obtain rfl : a = 0 := Subsingleton.elim _ _
  unfold ScatterDims.start
  rw [dif_pos (show (0 : Fin 1) ∈ (segDims wf).scatterDimsToOperandDims from List.mem_singleton.mpr rfl)]
  have hsi : (segDims wf).siIdx (ix1 n) ⟨List.idxOf (0 : Fin 1) (segDims wf).scatterDimsToOperandDims,
      List.idxOf_lt_length_iff.2 (List.mem_singleton.mpr rfl)⟩ = ix2 n 0 := by
    funext b; refine Fin.ext ?_
    match b with
    | ⟨0, _⟩ => rfl
    | ⟨1, _⟩ => rfl
  rw [hsi]

/-- The operand's one axis is inserted, so the window coordinate on it is zero. -/
private theorem window_eq (wf : ScatterDims.WF SC SNx1 SN [] [0] [0] 1) (n : Fin 262144) (a : Fin 1) :
    (segDims wf).window (ix1 n) a = 0 := by
  obtain rfl : a = 0 := Subsingleton.elim _ _
  unfold ScatterDims.window
  rw [dif_neg (show (0 : Fin SC.rank) ∉ SC.kept [0] by decide)]

/-- Row `n`'s update lands on class `c` exactly when its index word is the word of `c`. -/
theorem resultIdx?_eq_some_iff (wf : ScatterDims.WF SC SNx1 SN [] [0] [0] 1) (idx : IVec SNx1 32) (n : Fin 262144) (c : Fin 64) :
    (segDims wf).resultIdx? (ix1 n) idx = some (ix1 c) ↔ idx (ix2 n 0) = BitVec.ofNat 32 c.val := by
  have hsz : SC.size (0 : Fin 1) = 64 := rfl
  have hc := c.isLt
  constructor
  · intro h
    unfold ScatterDims.resultIdx? at h
    split at h
    · rename_i hcond
      have h0 := congrFun (Option.some.inj h) (0 : Fin 1)
      have h1 : ((segDims wf).start (ix1 n) idx 0 + ((segDims wf).window (ix1 n) 0 : Nat)).toNat = c.val :=
        congrArg Fin.val h0
      have h2 := (hcond 0).1
      rw [start_eq wf idx n 0, window_eq wf n 0] at h1 h2
      refine (toInt_eq_iff _ c).mp ?_
      omega
    · exact absurd h (by simp)
  · intro h
    have hi : (idx (ix2 n 0)).toInt = (c.val : Int) := (toInt_eq_iff _ c).mpr h
    have hcond : ∀ a, 0 ≤ (segDims wf).start (ix1 n) idx a + ((segDims wf).window (ix1 n) a : Nat) ∧
        (segDims wf).start (ix1 n) idx a + ((segDims wf).window (ix1 n) a : Nat) < SC.size a := by
      intro a
      obtain rfl : a = 0 := Subsingleton.elim _ _
      rw [start_eq wf idx n 0, window_eq wf n 0, hi, hsz]
      omega
    unfold ScatterDims.resultIdx?
    rw [dif_pos hcond]
    congr 1
    funext a
    obtain rfl : a = 0 := Subsingleton.elim _ _
    refine Fin.ext ?_
    show ((segDims wf).start (ix1 n) idx 0 + ((segDims wf).window (ix1 n) 0 : Nat)).toNat = c.val
    rw [start_eq wf idx n 0, window_eq wf n 0, hi]
    omega

/-- The accumulating scatter at class `c`: the operand's entry plus the class sum of the updates. -/
theorem scatterAdd_apply (wf : ScatterDims.WF SC SNx1 SN [] [0] [0] 1) (bc : SN.BroadcastsInDim SNx1 (![0] : Fin 1 → Fin SNx1.rank))
    (x : SC.Idx → EReal) (lbl : SN.Idx → BitVec 32) (upd : SN.Idx → EReal) (c : Fin 64) :
    Ideal.hostScatterAdd (segDims wf) x (broadcastInDim SNx1 ![0] bc lbl) upd (ix1 c)
      = x (ix1 c) + classSum lbl (fun n => upd (ix1 n)) c := by
  have hb : ∀ n : Fin 262144, broadcastInDim SNx1 ![0] bc lbl (ix2 n 0) = lbl (ix1 n) := by
    intro n
    unfold broadcastInDim
    congr 1
    funext a
    match a with
    | ⟨0, h0⟩ =>
      have hne : ¬ SN.size ⟨0, h0⟩ = 1 := by
        show ¬ (262144 : Nat) = 1
        decide
      rw [dif_neg hne]
      rfl
  unfold Ideal.hostScatterAdd classSum
  refine congrArg (x (ix1 c) + ·) ?_
  refine (Finset.sum_filter _ _).trans ?_
  let e : Fin 262144 ≃ SN.Idx := ⟨ix1, fun j => j 0, fun _ => rfl, fun j => (eq_ix1 j).symm⟩
  refine (Equiv.sum_comp e _).symm.trans ?_
  refine Finset.sum_congr rfl (fun n _ => ?_)
  show (if (segDims wf).resultIdx? (ix1 n) (broadcastInDim SNx1 ![0] bc lbl) = some (ix1 c) then upd (ix1 n) else 0) = _
  rw [if_congr (resultIdx?_eq_some_iff wf _ n c) rfl rfl, hb n]
  unfold oh
  split
  · rw [one_mul]
  · rw [zero_mul]

end Cert.ScatterRead

end
-- ==== Proof.Bridge.lean ====
/-
  The two programs compute one function of the arguments, at the extended reals.

  The kernel's program ends with the loss of the per-class counts and of the two cores' partial sums added; the
  reference ends with the same loss of the same counts and of its per-class scatter of the masked distances.  So it is
  enough that the per-class sums agree: at class `c` the kernel's is `0 +` the sum over cores, blocks and rows of the
  one-hot weight times the masked distance, which is the sum over ALL rows (a re-indexing); the reference's is `0 +` the
  sum of its masked distances over the rows whose label word is `c`'s (the scatter drops every other row, and so does a
  zero one-hot weight); and on those rows the two masked distances are equal, because the one-hot product picks exactly
  the table row the reference's gather reads.  No entry needs to be finite: only `0 · a = 0`, `1 · a = a` and the
  commutativity and associativity of the sum are used.
-/
import proofs.«417819_j19396072308794_2_alg».proof.Proof.KTail
import proofs.«417819_j19396072308794_2_alg».proof.Proof.RefRow
import proofs.«417819_j19396072308794_2_alg».proof.Proof.ScatterRead
import proofs.«417819_j19396072308794_2_alg».proof.Proof.ClassSumAlg
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Bridge

open Cert.Spec Cert.ReferenceIdeal.ReadP
open Cert.KernelIdeal.KValue (perClass lossOf)

/-- The reference's argument arrays' types. -/
abbrev X0 : Type := (⟨Cert.ReferenceIdeal.S262144x256, .f32⟩ : BufTy).Contents (Elt Ideal)
abbrev X1 : Type := (⟨Cert.ReferenceIdeal.S262144, .i32⟩ : BufTy).Contents (Elt Ideal)

/-- The anchor flags as the kernel's program passes them: the reference's one-bit flags widened to 32 bits. -/
abbrev flags (x1 : X1) : SN.Idx → BitVec 32 := extui 32 (val_main_v34 (F := Ideal) x1) (by decide)

/-- The kernel's [2, 64, 1] result as a function of the arguments. -/
abbrev kOut (x0 : X0) (x1 : X1) : SPxCx1.Idx → EReal :=
  coreSums x0 (val_main_v16 (F := Ideal) x0 x1) x1 (flags x1)

/-- The two cores' rows added from zero, at class `cls`. -/
theorem perClass_apply (o : SPxCx1.Idx → EReal) (cls : Fin 64) :
    perClass (F := Ideal) o (ix1 cls) = 0 + ∑ p : Fin 2, o (ix3 p cls 0) := by
  unfold perClass
  simp only [Host.reduceAdd, Ideal.hostReduceAdd_def]
  rw [Ideal.hostReduceAdd_single Cert.KernelIdeal.Gen.reducesTo_S2x64_S64_d0 (by decide)]
  congr 1
  · exact Ideal.ofBits_zero_f32
  · refine Finset.sum_congr rfl fun p _ => ?_
    refine shapeCast_apply o _ _ (ix3 p cls 0) ?_
    rw [Shape.rowMajor_val_three, Shape.rowMajor_val_two]
    show (p.val * 64 + cls.val) * 1 + 0 = p.val * 64 + cls.val
    omega

/-- The reference's per-class scatter at class `cls`: zero plus the class sum of its masked distances. -/
theorem v39_apply (x0 : X0) (x1 : X1) (cls : Fin 64) :
    val_main_v39 (F := Ideal) x0 x1 (ix1 cls) = 0 + classSum x1 (fun n => val_main_v36 (F := Ideal) x0 x1 (ix1 n)) cls := by
  have hd : Cert.ReferenceIdeal.scatter_S64_S262144x1_S262144_n_0_0_1
      = Cert.ScatterRead.segDims Cert.ReferenceIdeal.Gen.scatter_S64_S262144x1_S262144_n_0_0_1_wf := rfl
  have h := Cert.ScatterRead.scatterAdd_apply Cert.ReferenceIdeal.Gen.scatter_S64_S262144x1_S262144_n_0_0_1_wf
    Cert.ReferenceIdeal.Gen.bcast_S262144_S262144x1_0 (val_main_v37 (F := Ideal)) x1 (val_main_v36 (F := Ideal) x0 x1) cls
  have h0 : val_main_v37 (F := Ideal) (ix1 cls) = 0 := by
    rw [val_main_v37_apply, val_main_cst_10_apply]; exact Ideal.ofBits_zero_f32
  rw [h0] at h
  rw [← h]
  unfold val_main_v39 val_main_v38
  rw [hd]
  rfl

/-- The per-class sums agree. -/
theorem perClass_kOut (x0 : X0) (x1 : X1) : perClass (F := Ideal) (kOut x0 x1) = val_main_v39 (F := Ideal) x0 x1 := by
  funext j
  obtain ⟨cls, rfl⟩ : ∃ cls : Fin 64, j = ix1 cls := ⟨j 0, eq_ix1 j⟩
  rw [perClass_apply, v39_apply]
  refine congrArg (fun z => (0 : EReal) + z) ?_
  show (∑ p : Fin 2, coreSum x0 (val_main_v16 (F := Ideal) x0 x1) x1 (flags x1) p cls) = _
  rw [← classSum_eq_sum_coreSum]
  exact classSum_congr x1 _ _ cls fun n hn => (Cert.ReferenceIdeal.RefValue.v36_apply_of_label x0 x1 n cls hn).symm

/-- The kernel's result as a function of the arguments. -/
def kRes (x0 : X0) (x1 : X1) : (⟨Cert.ReferenceIdeal.S1, .f32⟩ : BufTy).Contents (Elt Ideal) :=
  lossOf (F := Ideal) (val_main_v7 (F := Ideal) x1) (perClass (F := Ideal) (kOut x0 x1))

/-- It is the reference's result. -/
theorem kRes_eq (x0 : X0) (x1 : X1) : kRes x0 x1 = val_main_v50 (F := Ideal) x0 x1 := by
  unfold kRes
  rw [perClass_kOut]
  rfl

end Cert.Bridge

end
-- ==== Proof.KRun.lean ====
/-
  The idealized kernel's run, read: its one-entry result as a function of the two arguments.

  The region finds the rows and the labels as launched, the anchor table and the anchor flags at the reference's own
  stages of the arguments; it leaves the two cores' partial sums in its [2, 64, 1] result; the host lines after it form
  the loss from those and from the per-class counts, which are the reference's counts.
-/
import proofs.«417819_j19396072308794_2_alg».proof.Proof.KTail
import proofs.«417819_j19396072308794_2_alg».proof.Proof.KAccum
import proofs.«417819_j19396072308794_2_alg».proof.Proof.KPrefix
import proofs.«417819_j19396072308794_2_alg».proof.Proof.Bridge

noncomputable section

open Idealize.ShloMosaic Idealize.ShloMosaic.TcCoe Idealize.SL.Sem

namespace Cert.KernelIdeal.KValue

open Cert.KernelIdeal Cert.KernelIdeal.Gen Cert.Spec

variable (m : (ℓ : Loc nD τ sig) → Buf (Elt Ideal) ℓ) (ρ : Dev nD → PrngReg)

/-- The result buffer after the program's last line, as a function of the arguments' launch contents. -/
theorem result_eq (c : Dev nD) :
    Pipeline.afterTail₀ cfgs (dats m) 0 (V0 m) [hostOps1, hostOps1_1, hostOps1_2] c main_v39
      = Cert.Bridge.kRes (m ((c : Thread nD τ).loc main_arg0)) (m ((c : Thread nD τ).loc main_arg1)) := by
  rw [tail_eq, final_o, V0_v7, V_v16, V_v25, V_main_arg0, V_main_arg1]
  rfl

/-- Every weakly fair execution terminates with the result at that function of the arguments and the arguments unchanged. -/
theorem run : θ_run defs (onTc (τ := τ) (main (F := Ideal))) ⟨m, fun _ => 0, ρ⟩ fun r => ∀ c : Dev nD,
      r.2.mem ((c.tc : Thread nD τ).loc main_v39)
        = Cert.Bridge.kRes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v39 (Pipeline.mem_restRefs_of main_v39 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/-
  The certificate of one kernel against its reference: a per-class anchor loss.

  Each of 262144 rows of 256 entries carries a class label; a class's anchor is its first row.  The loss adds, over the
  classes with at least two rows, the mean over the class's other rows of the squared distance to the anchor.  The
  kernel streams the rows through a 2 × 32 grid of 4096-row blocks; per block it selects each row's anchor with a one-hot
  matrix product, takes the squared distances, zeroes the anchors' own rows, and adds the distances into per-class bins
  with the transposed one-hot product; each of the two cores accumulates its 32 blocks, and the host adds the two cores.
  The reference gathers each row's anchor and scatter-adds the distances by label.  Over the extended reals both are
  the same sum: a one-hot weight keeps exactly the rows whose label is the class's word, which are exactly the rows the
  scatter keeps, and on those rows the one-hot product picks the row of the table the gather reads.

  The frames of the two kernel programs are the generated ones; the reference's is its run with the result dropped.
  The ideal pass rewrote nothing, so the idealization claim is trivial.  The value claim pairs the kernel's run
  (`KValue.run`) with the reference's run and closes with `Bridge.kRes_eq`.
-/
import proofs.«417819_j19396072308794_2_alg».proof.Defs
import proofs.«417819_j19396072308794_2_alg».proof.Proof.Gen.Kernel
import proofs.«417819_j19396072308794_2_alg».proof.Proof.Gen.Kernel.Frame
import proofs.«417819_j19396072308794_2_alg».proof.Proof.Gen.KernelIdeal
import proofs.«417819_j19396072308794_2_alg».proof.Proof.Gen.KernelIdeal.Frame
import proofs.«417819_j19396072308794_2_alg».proof.Proof.Gen.ReferenceIdeal
import proofs.«417819_j19396072308794_2_alg».proof.Proof.Gen.Pre_finite_inputs
import proofs.«417819_j19396072308794_2_alg».proof.Proof.RefRun
import proofs.«417819_j19396072308794_2_alg».proof.Proof.RefRead
import proofs.«417819_j19396072308794_2_alg».proof.Proof.KRun
import proofs.«417819_j19396072308794_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the two arguments both programs end with the same one-entry result. -/
theorem algebraic : Cert.algebraic_KernelIdeal_ReferenceIdeal := by
  intro m ρ m' ρ' _ hagree
  refine ⟨fun c => Cert.Bridge.kRes (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v50_eq, (hagree c).1, (hagree c).2]
  exact (Cert.Bridge.kRes_eq _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
